-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 66
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1x64, .f32⟩
  | .hbm, ⟨13, _⟩ => ⟨S100000x64, .bf16⟩
  | .hbm, ⟨14, _⟩ => ⟨S100000x64, .bf16⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .bf16⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S1x1, .f32⟩
  | .hbm, ⟨65, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .bf16⟩
  | .local _ .vmem, ⟨5, _⟩ => ⟨S10000x64, .bf16⟩
  | .local _ .vmem, ⟨6, _⟩ => ⟨S10000x64, .bf16⟩
  | .local _ .vmem, ⟨7, _⟩ => ⟨S10000x64, .bf16⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S64x1, .f32⟩
  | .local _ .vmem, ⟨14, _⟩ => ⟨S1x1, .f32⟩
  | .local _ .vmem, ⟨15, _⟩ => ⟨S10000x1, .f32⟩
  | .local _ .vmem, ⟨16, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .bf16 = 32 ∨ (Rect.block (s := S100000x64) S10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .bf16 = 32 ∨ (Rect.block (s := S100000x64) S10000x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S100000x1 : Shape := ⟨2, ![100000, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S100000, .i32⟩
  | .hbm, ⟨20, _⟩ => ⟨S1700000, .i32⟩
  | .hbm, ⟨21, _⟩ => ⟨S1700000, .i32⟩
  | .hbm, ⟨22, _⟩ => ⟨S100000x64, .f32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x1, .f32⟩
  | .hbm, ⟨69, _⟩ => ⟨S1x1, .f32⟩
  | .hbm, ⟨70, _⟩ => ⟨S100000x1, .f32⟩
  | .hbm, ⟨71, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Layers.lean ====
/-
  The network both programs compute, as four functions of whole arrays, each spelt with the host operations of the
  reference so that the reference's result is their composition on the nose:

    hidden    x W b   = max (x · W + b, 0)                      rows × 64   (input projection and ReLU)
    projected h W     = h · W                                   rows × 64   (the convolution's weight)
    aggregate src dst hw b                                      rows × 64   (the graph convolution's message passing)
        = segment_sum (hw[src'] * norm, dst') + b, where src', dst' are the edge lists with one self loop per node
          appended, norm e = dinv[src' e] * dinv[dst' e], dinv = rsqrt (deg), deg = segment_sum (1, dst')
    readout   a W b   = a · W + b                               rows × 1    (output projection)

  The matrix products are the host's `dot_general` (at the ideal instance the plain sum over the contracted axis), the
  gathers and scatter-adds the host's, and the negative-index wrap-around that `x[idx]` lowers to is kept as printed.
-/
import proofs.«173241_j6760278523984_1_alg».proof.Proof.Gen.ReferenceIdeal
import Idealize.ShloMosaic.PureOps.Ideal

noncomputable section

namespace Cert.Gcn

open Idealize.ShloMosaic Idealize.ShloMosaic.TcCoe Idealize.SL.Sem Cert.ReferenceIdeal Cert.ReferenceIdeal.Facts₀

variable {F : FTy → Type} [FloatOps F]

/-- An edge list with one self loop per node appended: the 1600000 given endpoints, then 0, 1, …, 99999. -/
def withLoops (v : (⟨S1600000, .i32⟩ : BufTy).Contents (Elt F)) : (⟨S1700000, .i32⟩ : BufTy).Contents (Elt F) :=
  concatenate S1700000 0 [⟨S1600000, v⟩, ⟨S100000, (iotaInDim S100000 32 0)⟩] concatenates_S1600000_S100000_S1700000_d0

/-- The wrap-around of a negative index that `x[idx]` lowers to: `e + 100000` where `e < 0`, else `e`. -/
def wrapIdx (e : (⟨S1700000, .i32⟩ : BufTy).Contents (Elt F)) : (⟨S1700000, .i32⟩ : BufTy).Contents (Elt F) :=
  select (cmpi .slt e (broadcastInDim S1700000 ![] bcast_S_S1700000 (constantI S_ 32 0#32))) (addi e (broadcastInDim S1700000 ![] bcast_S_S1700000 (constantI S_ 32 100000#32))) e

/-- The degree of every node: one per edge (self loops included) that ends at it. -/
def deg (dst : (⟨S1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (withLoops dst)) (broadcastInDim S1700000 ![] bcast_S_S1700000 (constant S_ .f32 0x3F800000#32))

/-- The symmetric normalisation of every edge: `rsqrt (deg)` at its source times `rsqrt (deg)` at its end. -/
def norm (src dst : (⟨S1600000, .i32⟩ : BufTy).Contents (Elt F)) : (⟨S1700000, .f32⟩ : BufTy).Contents (Elt F) :=
  mulf (Host.gather gather_S100000_S1700000x1_S1700000_n_0_n_n_0_1_1 (Host.rsqrt (deg dst)) (broadcastInDim S1700000x1 ![0] bcast_S1700000_S1700000x1_0 (wrapIdx (withLoops src)))) (Host.gather gather_S100000_S1700000x1_S1700000_n_0_n_n_0_1_1 (Host.rsqrt (deg dst)) (broadcastInDim S1700000x1 ![0] bcast_S1700000_S1700000x1_0 (wrapIdx (withLoops dst))))

/-- The input projection and ReLU; the bias arrives as a [1, 64] row. -/
def hidden (x : (⟨S100000x128, .f32⟩ : BufTy).Contents (Elt F)) (w : (⟨S128x64, .f32⟩ : BufTy).Contents (Elt F)) (b : (⟨S1x64, .f32⟩ : BufTy).Contents (Elt F)) : (⟨S100000x64, .f32⟩ : BufTy).Contents (Elt F) :=
  maximumf (addf (Host.dotGeneral dot_S100000x128_S128x64_S100000x64_1_0_0_1_n_n none x w) (broadcastInDim S100000x64 ![0, 1] bcast_S1x64_S100000x64_0_1 b)) (broadcastInDim S100000x64 ![] bcast_S_S100000x64 (constant S_ .f32 0x00000000#32))

/-- The convolution's weight applied to every node's features. -/
def projected (h : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none h w

/-- The message passing: every edge carries its source's row scaled by the edge's normalisation, summed at its end;
    then the bias. -/
def aggregate (src dst : (⟨S1600000, .i32⟩ : BufTy).Contents (Elt F)) (hw : (⟨S100000x64, .f32⟩ : BufTy).Contents (Elt F)) (bg : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (withLoops dst)) (mulf (Host.gather gather_S100000x64_S1700000x1_S1700000x64_1_0_n_n_0_1_164 hw (broadcastInDim S1700000x1 ![0] bcast_S1700000_S1700000x1_0 (wrapIdx (withLoops src)))) (broadcastInDim S1700000x64 ![0, 1] bcast_S1700000x1_S1700000x64_0_1 (broadcastInDim S1700000x1 ![0] bcast_S1700000_S1700000x1_0 (norm src dst))))) (broadcastInDim S100000x64 ![0, 1] bcast_S1x64_S100000x64_0_1 (broadcastInDim S1x64 ![1] bcast_S64_S1x64_1 bg))

/-- The output projection; the bias arrives as a [1, 1] array. -/
def readout (a : (⟨S100000x64, .f32⟩ : BufTy).Contents (Elt F)) (w : (⟨S64x1, .f32⟩ : BufTy).Contents (Elt F)) (b : (⟨S1x1, .f32⟩ : BufTy).Contents (Elt F)) : (⟨S100000x1, .f32⟩ : BufTy).Contents (Elt F) :=
  addf (Host.dotGeneral dot_S100000x64_S64x1_S100000x1_1_0_0_1_n_n none a w) (broadcastInDim S100000x1 ![0, 1] bcast_S1x1_S100000x1_0_1 b)

/-- The two rows of the edge index as flat lists. -/
def edgeRow0 (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
def edgeRow1 (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The whole network. -/
def network (x : (⟨S100000x128, .f32⟩ : BufTy).Contents (Elt F)) (ei : (⟨S2x1600000, .i32⟩ : BufTy).Contents (Elt F))
    (wIn : (⟨S128x64, .f32⟩ : BufTy).Contents (Elt F)) (bIn : (⟨S1x64, .f32⟩ : BufTy).Contents (Elt F))
    (wG : (⟨S64x64, .f32⟩ : BufTy).Contents (Elt F)) (bG : (⟨S64, .f32⟩ : BufTy).Contents (Elt F))
    (wOut : (⟨S64x1, .f32⟩ : BufTy).Contents (Elt F)) (bOut : (⟨S1x1, .f32⟩ : BufTy).Contents (Elt F)) : (⟨S100000x1, .f32⟩ : BufTy).Contents (Elt F) :=
  readout (aggregate (edgeRow0 ei) (edgeRow1 ei) (projected (hidden x wIn bIn) wG) bG) wOut bOut

end Cert.Gcn

end
-- ==== Proof.HiddenRegion.lean ====
/-
  The first region: ten blocks of 10000 rows, each block `max (x_block · W_in + b_in, 0)`. The array it leaves is the
  hidden layer of the whole input: the layer is row-wise, so block t of the layer of the whole arrays is the layer of
  block t, and the ten blocks tile the array.
-/
import proofs.«173241_j6760278523984_1_alg».proof.Proof.Layers
import proofs.«173241_j6760278523984_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«173241_j6760278523984_1_alg».proof.Proof.Gen.ReferenceIdeal.Read

set_option maxRecDepth 16384

noncomputable section

open Idealize.ShloMosaic Idealize.ShloMosaic.TcCoe Idealize.SL.Sem
open Idealize.ShloMosaic.Pipeline (Dat)

namespace Cert.Gcn.HiddenRegion

open Cert.KernelIdeal Cert.KernelIdeal.Gen
open Idealize.ShloMosaic.ValueIdx

theorem hz : (![0, 0] : Fin 2 → Nat) = fun _ => 0 := funext fun a => by fin_cases a <;> rfl

/-! ## The block product at an index: row `j 0` of the block against column `j 1` of the weight -/

theorem lhs_0 (j : S10000x64.Idx) (q : dot_S10000x128_S128x64_S10000x64_1_0_0_1_n_n.contr.Idx) : (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (j : S10000x64.Idx) (q : dot_S10000x128_S128x64_S10000x64_1_0_0_1_n_n.contr.Idx) : (dot_S10000x128_S128x64_S10000x64_1_0_0_1_n_n.lhsIdx j q 1).val = (q ⟨0, by decide⟩).val :=
  dot_S10000x128_S128x64_S10000x64_1_0_0_1_n_n.lhsIdx_val_of_single rfl j q
theorem rhs_0 (j : S10000x64.Idx) (q : dot_S10000x128_S128x64_S10000x64_1_0_0_1_n_n.contr.Idx) : (dot_S10000x128_S128x64_S10000x64_1_0_0_1_n_n.rhsIdx j q 0).val = (q ⟨0, by decide⟩).val :=
  dot_S10000x128_S128x64_S10000x64_1_0_0_1_n_n.rhsIdx_val_of_single rfl j q
theorem rhs_1 (j : S10000x64.Idx) (q : dot_S10000x128_S128x64_S10000x64_1_0_0_1_n_n.contr.Idx) : (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry `(j 0, k)` of a block of the input. -/
abbrev blockRow (j : S10000x64.Idx) (k : Fin 128) : S10000x128.Idx := fun a => match a with
  | ⟨0, _⟩ => ⟨(j 0).val, (j 0).isLt⟩
  | ⟨1, _⟩ => ⟨k.val, k.isLt⟩
/-- Entry `(k, j 1)` of the weight. -/
abbrev weightCol (j : S10000x64.Idx) (k : Fin 128) : S128x64.Idx := fun a => match a with
  | ⟨0, _⟩ => ⟨k.val, k.isLt⟩
  | ⟨1, _⟩ => ⟨(j 1).val, (j 1).isLt⟩
/-- Entry `(0, j 1)` of the bias row. -/
abbrev biasCol (j : S10000x64.Idx) : S1x64.Idx := fun a => match a with
  | ⟨0, _⟩ => ⟨0, Nat.one_pos⟩
  | ⟨1, _⟩ => ⟨(j 1).val, (j 1).isLt⟩

/-- The body's product into the zero accumulator is the plain sum over the contracted axis. -/
theorem block_product (l : FVec Ideal S10000x128 .bf16) (r : FVec Ideal S128x64 .bf16) (j : S10000x64.Idx) :
    matmul (F := Ideal) dot_S10000x128_S128x64_S10000x64_1_0_0_1_n_n none l r (constant (F := Ideal) S10000x64 .f32 0x00000000#32) j
      = ∑ k : Fin 128, l (blockRow j k) * r (weightCol j k) := by
  refine (Ideal.matmul_constant_zero_apply dot_S10000x128_S128x64_S10000x64_1_0_0_1_n_n none l r j).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx j ((contrEquiv1 dot_S10000x128_S128x64_S10000x64_1_0_0_1_n_n 128 rfl rfl).symm k) = blockRow j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((contrEquiv1 dot_S10000x128_S128x64_S10000x64_1_0_0_1_n_n 128 rfl rfl).symm k) = weightCol j k := funext fun a => Fin.ext (by
    match a with
    | ⟨0, _⟩ => exact (rhs_0 _ _).trans hk
    | ⟨1, _⟩ => exact rhs_1 _ _)
  rw [el, er]

/-- What the body stores, at an index of the block. -/
theorem payload_apply (x0 : Vec Ideal S10000x128 .f32) (x1 : Vec Ideal S128x64 .f32) (x2 : Vec Ideal S1x64 .f32) (j : S10000x64.Idx) :
    k0_pay1 (F := Ideal) x0 x1 x2 j
      = max ((∑ k : Fin 128, x0 (blockRow j k) * x1 (weightCol j k)) + x2 (biasCol j)) (Ideal.ofBits .f32 0x00000000#32) := by
  unfold k0_pay1
  simp only [truncf_apply, maximumf_apply, addf_apply, broadcast_apply, shapeCast_self]
  refine congrArg₂ max (congrArg₂ (· + ·) ?_ ?_) rfl
  · exact block_product _ _ j
  · exact broadcastTo_apply x2 _ j (biasCol j) (fun a => match a with
      | ⟨0, _⟩ => by show 0 = if (1 : Nat) = 1 then 0 else _; rw [if_pos rfl]
      | ⟨1, _⟩ => by show (j 1).val = if (64 : Nat) = 1 then 0 else (j 1).val; rw [if_neg (by decide)])

/-! ## The layer of whole arrays at an index -/

open Cert.ReferenceIdeal.Read in
/-- The hidden layer at `(i 0, i 1)`: row `i 0` of the input against column `i 1` of the weight, plus the bias at
    `i 1`, clipped at zero. -/
theorem hidden_apply (x : (⟨Cert.ReferenceIdeal.S100000x128, .f32⟩ : BufTy).Contents (Elt Ideal)) (w : (⟨Cert.ReferenceIdeal.S128x64, .f32⟩ : BufTy).Contents (Elt Ideal))
    (b : (⟨Cert.ReferenceIdeal.S1x64, .f32⟩ : BufTy).Contents (Elt Ideal)) (i : Cert.ReferenceIdeal.S100000x64.Idx) :
    Cert.Gcn.hidden (F := Ideal) x w b i
      = max ((∑ k : Fin 128, x (lidx_main_v0 i k) * w (ridx_main_v0 i k)) + b (idx_main_v2 i)) (Ideal.ofBits .f32 0x00000000#32) := by
  unfold Cert.Gcn.hidden
  simp only [maximumf_apply, addf_apply]
  refine congrArg₂ max (congrArg₂ (· + ·) ?_ ?_) ?_
  · exact val_main_v0_apply x w i
  · exact broadcastInDim_apply _ _ b i (idx_main_v2 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])
  · exact broadcastInDim_apply _ _ _ i (fun a => a.elim0) (fun a => a.elim0)

variable (V : (c : Dev nD) → (b : Ref sig .tc) → Buf (Elt Ideal) ((c : Thread nD τ).loc b))

/-! ## The windows' blocks inside their arrays -/

/-- The index maps, decided over the grid: the input's block moves with the output's down the rows; the weight and
    the bias are fetched whole. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every block of ten thousand rows of the output is some point's. -/
theorem idx_onto : ∀ q : Fin 10, ∃ t : Fin cfg0.N, win0_3.index t = ![q.val, 0] :=
  (by decide +kernel : ∀ q : Fin 10, ∃ t : Fin grid0.N, win0_3.index t = ![q.val, 0])

/-- An element of the input's block at point `t` is the input's element ten thousand rows per block further down. -/
theorem read_x (c : Dev nD) (t : Fin cfg0.N) (y : S10000x128.Idx) (i : S100000x128.Idx)
    (h0 : (i 0).val = win0_0.index t (0 : Fin 2) * 10000 + (y 0).val) (h1 : (i 1).val = win0_0.index t (1 : Fin 2) * 128 + (y 1).val) :
    iblk0 V c 0 t y = V c main_arg0 i := by
  show V c main_arg0 (((cfg0.win 0).blk t).view.emb y) = V c main_arg0 i
  refine congrArg (V c main_arg0) (funext fun a => Fin.ext ?_)
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The weight's one block is the weight. -/
theorem read_w (c : Dev nD) (t : Fin cfg0.N) (y : S128x64.Idx) (i : S128x64.Idx)
    (h0 : (i 0).val = win0_1.index t (0 : Fin 2) * 128 + (y 0).val) (h1 : (i 1).val = win0_1.index t (1 : Fin 2) * 64 + (y 1).val) :
    iblk0 V c 1 t y = V c main_arg2 i := by
  show V c main_arg2 (((cfg0.win 1).blk t).view.emb y) = V c main_arg2 i
  refine congrArg (V c main_arg2) (funext fun a => Fin.ext ?_)
  match a with
  | ⟨0, _⟩ => show win0_1.index t (0 : Fin 2) * 128 + 1 * (y 0).val = (i 0).val; omega
  | ⟨1, _⟩ => show win0_1.index t (1 : Fin 2) * 64 + 1 * (y 1).val = (i 1).val; omega

/-- The bias row's one block is the bias row. -/
theorem read_b (c : Dev nD) (t : Fin cfg0.N) (y : S1x64.Idx) (i : S1x64.Idx)
    (h0 : (i 0).val = win0_2.index t (0 : Fin 2) * 1 + (y 0).val) (h1 : (i 1).val = win0_2.index t (1 : Fin 2) * 64 + (y 1).val) :
    iblk0 V c 2 t y = V c main_v4 i := by
  show V c main_v4 (((cfg0.win 2).blk t).view.emb y) = V c main_v4 i
  refine congrArg (V c main_v4) (funext fun a => Fin.ext ?_)
  match a with
  | ⟨0, _⟩ => show win0_2.index t (0 : Fin 2) * 1 + 1 * (y 0).val = (i 0).val; omega
  | ⟨1, _⟩ => show win0_2.index t (1 : Fin 2) * 64 + 1 * (y 1).val = (i 1).val; omega

/-- What point `t` writes back is block `t` of the hidden layer of the arrays the region found. -/
theorem flushed_eq (c : Dev nD) (t : Fin cfg0.N) :
    (dat0 (F := Ideal) V c).flushed 3 t
      = ((cfg0.win 3).blk t).view.read (Elt Ideal) (Cert.Gcn.hidden (F := Ideal) (V c main_arg0) (V c main_arg2) (V c main_v4)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  funext j
  show k0_pay1 (F := Ideal) (iblk0 V c 0 t) (iblk0 V c 1 t) (iblk0 V c 2 t) j
    = Cert.Gcn.hidden (F := Ideal) (V c main_arg0) (V c main_arg2) (V c main_v4) (((cfg0.win 3).blk t).view.emb j)
  obtain ⟨e0, e1, e2, e3, e4, e5, e6, e7⟩ := idx_facts t
  have hj0 : ((((cfg0.win 3).blk t).view.emb j) 0).val = win0_3.index t (0 : Fin 2) * 10000 + (j 0).val := by
    show win0_3.index t (0 : Fin 2) * 10000 + 1 * (j 0).val = _; omega
  have hj1 : ((((cfg0.win 3).blk t).view.emb j) 1).val = win0_3.index t (1 : Fin 2) * 64 + (j 1).val := by
    show win0_3.index t (1 : Fin 2) * 64 + 1 * (j 1).val = _; omega
  refine (payload_apply (iblk0 V c 0 t) (iblk0 V c 1 t) (iblk0 V c 2 t) j).trans ?_
  refine Eq.trans ?_ (hidden_apply (V c main_arg0) (V c main_arg2) (V c main_v4) (((cfg0.win 3).blk t).view.emb j)).symm
  refine congrArg₂ max (congrArg₂ (· + ·) (Finset.sum_congr rfl fun k _ => congrArg₂ (· * ·) ?_ ?_) ?_) rfl
  · refine read_x V c t (blockRow j k) _ ?_ ?_
    · exact hj0.trans (by rw [e0])
    · show k.val = win0_0.index t (1 : Fin 2) * 128 + k.val; rw [e1, Nat.zero_mul, Nat.zero_add]
  · refine read_w V c t (weightCol j k) _ ?_ ?_
    · show k.val = win0_1.index t (0 : Fin 2) * 128 + k.val; rw [e2, Nat.zero_mul, Nat.zero_add]
    · exact hj1.trans (by rw [e6, e3])
  · refine read_b V c t (biasCol j) _ ?_ ?_
    · show 0 = win0_2.index t (0 : Fin 2) * 1 + 0; rw [e4]
    · exact hj1.trans (by rw [e6, e5])

/-- An index of the output is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- The ten blocks tile the output: row `r` lies in the block of the point whose block index is `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the region's ten write-backs the output array is the hidden layer of the arrays the region found. -/
theorem array_eq (c : Dev nD) :
    (dat0 (F := Ideal) V c).arrAt 3 cfg0.N = Cert.Gcn.hidden (F := Ideal) (V c main_arg0) (V c main_arg2) (V c main_v4) :=
  (dat0 (F := Ideal) V c).arrAt_eq_of_cover 3 (Cert.Gcn.hidden (F := Ideal) (V c main_arg0) (V c main_arg2) (V c main_v4))
    (fun t _ => flushed_eq V c t) cover

end Cert.Gcn.HiddenRegion

end
-- ==== Proof.ProjectedRegion.lean ====
/-
  The second region: ten blocks of 10000 rows, each block `h_block · W_g`. The array it leaves is the hidden layer
  times the convolution's weight.
-/
import proofs.«173241_j6760278523984_1_alg».proof.Proof.Layers
import proofs.«173241_j6760278523984_1_alg».proof.Proof.Gen.KernelIdeal.Frame
import proofs.«173241_j6760278523984_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.Gcn.ProjectedRegion

open Cert.KernelIdeal Cert.KernelIdeal.Gen

variable (V : (c : Dev nD) → (b : Ref sig .tc) → Buf (Elt Ideal) ((c : Thread nD τ).loc b))

/-! ## The block product at an index -/

/-- The body's accesses are at zero offsets. -/
theorem zero_offsets : (![0, 0] : Fin 2 → Nat) = fun _ => 0 := funext fun a => by fin_cases a <;> rfl

/-- The left operand's index of the block product: its row is the output's row ... -/
theorem lhs_row (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- ... and its column the contracted index. -/
theorem lhs_col (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
/-- The right operand's index: its row is the contracted index ... -/
theorem rhs_row (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
/-- ... and its column the output's column. -/
theorem rhs_col (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry `(row of j, k)` of a block of 10000 rows. -/
abbrev blkRowAt (j : S10000x64.Idx) (k : Fin 64) : S10000x64.Idx := fun a => match a with
  | ⟨0, _⟩ => ⟨(j 0).val, (j 0).isLt⟩
  | ⟨1, _⟩ => ⟨k.val, k.isLt⟩
/-- Entry `(k, column of j)` of the weight. -/
abbrev wColAt (j : S10000x64.Idx) (k : Fin 64) : S64x64.Idx := fun a => match a with
  | ⟨0, _⟩ => ⟨k.val, k.isLt⟩
  | ⟨1, _⟩ => ⟨(j 1).val, (j 1).isLt⟩

/-- The block product into the zero accumulator, at an index: the sum over the 64 contracted positions of the left
    block's row entry times the weight's column entry. -/
theorem blockProduct_apply (x : FVec Ideal S10000x64 .bf16) (w : FVec Ideal S64x64 .bf16) (j : S10000x64.Idx) :
    FloatOps.matmul dot_S10000x64_S64x64_S10000x64_1_0_0_1_n_n none x w (constant (F := Ideal) S10000x64 .f32 0x00000000#32) j
      = ∑ k : Fin 64, x (blkRowAt j k) * w (wColAt j k) := by
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = blkRowAt j k := funext fun a => Fin.ext (by
    match a with
    | ⟨0, _⟩ => exact lhs_row _ _
    | ⟨1, _⟩ => exact (lhs_col _ _).trans hk)
  have er : dot_S10000x64_S64x64_S10000x64_1_0_0_1_n_n.rhsIdx j ((ValueIdx.contrEquiv1 dot_S10000x64_S64x64_S10000x64_1_0_0_1_n_n 64 rfl rfl).symm k) = wColAt j k := funext fun a => Fin.ext (by
    match a with
    | ⟨0, _⟩ => exact (rhs_row _ _).trans hk
    | ⟨1, _⟩ => exact rhs_col _ _)
  rw [el, er]

/-- What the body stores, at an index of its block: at the ideal instance the two narrowings and the reshape to the
    same shape are identities, so it is the block product. -/
theorem payload_apply (x0 : Vec Ideal S10000x64 .bf16) (x1 : Vec Ideal S64x64 .f32) (j : S10000x64.Idx) :
    k1_pay1 (F := Ideal) x0 x1 j = ∑ k : Fin 64, x0 (blkRowAt j k) * x1 (wColAt j k) := by
  unfold k1_pay1
  refine (blockProduct_apply (shapeCast S10000x64 x0 shapeCasts_S10000x64_S10000x64) (truncf .bf16 x1 bitsLt_bf16_f32) j).trans ?_
  rw [shapeCast_self]
  rfl

/-! ## The layer at an index -/

/-- The layer at an index of the whole array: the same sum, over the whole arrays. -/
theorem projected_apply (h : (⟨Cert.ReferenceIdeal.S100000x64, .f32⟩ : BufTy).Contents (Elt Ideal)) (w : (⟨Cert.ReferenceIdeal.S64x64, .f32⟩ : BufTy).Contents (Elt Ideal)) (i : Cert.ReferenceIdeal.S100000x64.Idx) :
    Cert.Gcn.projected (F := Ideal) h w i = ∑ k : Fin 64, h (Cert.ReferenceIdeal.Read.lidx_main_v12 i k) * w (Cert.ReferenceIdeal.Read.ridx_main_v12 i k) := by
  unfold Cert.Gcn.projected
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = Cert.ReferenceIdeal.Read.lidx_main_v12 i k := funext fun a => Fin.ext (by
    match a with
    | ⟨0, _⟩ => exact Cert.ReferenceIdeal.Read.lhs_main_v12_0 _ _
    | ⟨1, _⟩ => exact (Cert.ReferenceIdeal.Read.lhs_main_v12_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = Cert.ReferenceIdeal.Read.ridx_main_v12 i k := funext fun a => Fin.ext (by
    match a with
    | ⟨0, _⟩ => exact (Cert.ReferenceIdeal.Read.rhs_main_v12_0 _ _).trans hk
    | ⟨1, _⟩ => exact Cert.ReferenceIdeal.Read.rhs_main_v12_1 _ _)
  rw [el, er]

/-! ## Where the windows' blocks sit -/

/-- The printed index maps, decided over the ten grid points: the hidden layer's block moves with the output's along the
    rows, the weight's block is the whole weight, and the output's row-block index stays below ten. -/
theorem blockIndex_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's. -/
theorem rowBlock_onto : ∀ q : Fin 10, ∃ t : Fin cfg1.N, win1_2.index t = ![q.val, 0] :=
  (by decide +kernel : ∀ q : Fin 10, ∃ t : Fin grid1.N, win1_2.index t = ![q.val, 0])

/-- The arrays the region finds and the blocks a point reads, at their literal types. -/
abbrev hArr (c : Dev nD) : Vec Ideal S100000x64 .bf16 := V c main_v5
abbrev wArr (c : Dev nD) : Vec Ideal S64x64 .f32 := V c main_arg4
abbrev hBlk (c : Dev nD) (t : Fin cfg1.N) : Vec Ideal S10000x64 .bf16 := iblk1 V c 0 t
abbrev wBlk (c : Dev nD) (t : Fin cfg1.N) : Vec Ideal S64x64 .f32 := iblk1 V c 1 t

/-- Row `r` of the hidden layer's block at a point is row `10000 · (block index) + r` of the array. -/
theorem hBlk_apply (c : Dev nD) (t : Fin cfg1.N) (y : S10000x64.Idx) (i : S100000x64.Idx)
    (h0 : (i 0).val = win1_0.index t (0 : Fin 2) * 10000 + (y 0).val) (h1 : (i 1).val = (y 1).val) :
    hBlk V c t y = hArr V c i := by
  obtain ⟨e0, e1, e2, e3, e4, e5⟩ := blockIndex_facts t
  show V c main_v5 (((cfg1.win 0).blk t).view.emb y) = V c main_v5 i
  refine congrArg (V c main_v5) (funext fun a => Fin.ext ?_)
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- The weight's block at every point is the whole weight. -/
theorem wBlk_apply (c : Dev nD) (t : Fin cfg1.N) (y : S64x64.Idx) (i : S64x64.Idx)
    (h0 : (i 0).val = (y 0).val) (h1 : (i 1).val = (y 1).val) :
    wBlk V c t y = wArr V c i := by
  obtain ⟨e0, e1, e2, e3, e4, e5⟩ := blockIndex_facts t
  show V c main_arg4 (((cfg1.win 1).blk t).view.emb y) = V c main_arg4 i
  refine congrArg (V c main_arg4) (funext fun a => Fin.ext ?_)
  match a with
  | ⟨0, _⟩ => show win1_1.index t (0 : Fin 2) * 64 + 1 * (y 0).val = (i 0).val; omega
  | ⟨1, _⟩ => show win1_1.index t (1 : Fin 2) * 64 + 1 * (y 1).val = (i 1).val; omega

/-! ## What a point writes back -/

/-- Point `t` writes back block `t` of the layer of the whole arrays. -/
theorem writtenBack_eq (c : Dev nD) (t : Fin cfg1.N) :
    (dat1 (F := Ideal) V c).flushed 2 t = ((cfg1.win 2).blk t).view.read (Elt Ideal) (Cert.Gcn.projected (F := Ideal) (V c main_v5) (V c main_arg4)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x64) zero_offsets]
  funext j
  have hj0 : (j 0).val < 10000 := (j 0).isLt
  have hj1 : (j 1).val < 64 := (j 1).isLt
  obtain ⟨e0, e1, e2, e3, e4, e5⟩ := blockIndex_facts t
  show k1_pay1 (F := Ideal) (hBlk V c t) (wBlk V c t) j
    = Cert.Gcn.projected (F := Ideal) (V c main_v5) (V c main_arg4) (((cfg1.win 2).blk t).view.emb j)
  refine (payload_apply (hBlk V c t) (wBlk V c t) j).trans ?_
  refine Eq.trans ?_ (projected_apply (V c main_v5) (V c main_arg4) (((cfg1.win 2).blk t).view.emb j)).symm
  refine Finset.sum_congr rfl fun k _ => ?_
  -- the left block's row entry is the array's entry in the output's row; the weight's entry is the weight's
  have hh : hBlk V c t (blkRowAt j k)
      = hArr V c (Cert.ReferenceIdeal.Read.lidx_main_v12 (((cfg1.win 2).blk t).view.emb j) k) :=
    hBlk_apply V c t (blkRowAt j k) (Cert.ReferenceIdeal.Read.lidx_main_v12 (((cfg1.win 2).blk t).view.emb j) k)
      (by show win1_2.index t (0 : Fin 2) * 10000 + 1 * (j 0).val = win1_0.index t (0 : Fin 2) * 10000 + (j 0).val; omega) rfl
  have hw : wBlk V c t (wColAt j k)
      = wArr V c (Cert.ReferenceIdeal.Read.ridx_main_v12 (((cfg1.win 2).blk t).view.emb j) k) :=
    wBlk_apply V c t (wColAt j k) (Cert.ReferenceIdeal.Read.ridx_main_v12 (((cfg1.win 2).blk t).view.emb j) k)
      rfl (by show win1_2.index t (1 : Fin 2) * 64 + 1 * (j 1).val = (j 1).val; omega)
  rw [hh, hw]

/-! ## The ten blocks cover the array -/

/-- An index of the array is in point `t`'s block iff each coordinate is in the block's range on its axis. -/
theorem mem_rowBlock (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v6).slice (win1_2.rect t)).set ↔ _
  rw [View.set_slice_whole, Rect.mem_set_unit]
  exact Iff.rfl

/-- Row `r` of the array is written back by the point whose row block is `r / 10000`. -/
theorem rows_covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := rowBlock_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_rowBlock]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region's ten write-backs the output array is the product of the arrays the region found. -/
theorem array_eq (c : Dev nD) :
    (dat1 (F := Ideal) V c).arrAt 2 cfg1.N = Cert.Gcn.projected (F := Ideal) (V c main_v5) (V c main_arg4) := by
  exact (dat1 (F := Ideal) V c).arrAt_eq_of_cover 2 (Cert.Gcn.projected (F := Ideal) (V c main_v5) (V c main_arg4))
    (fun t _ => writtenBack_eq V c t) rows_covered

end Cert.Gcn.ProjectedRegion

end
-- ==== Proof.ReadoutRegion.lean ====
/-
  The third region: ten blocks of 10000 rows, each block `a_block · W_out + b_out`. The array it leaves is the
  readout of the aggregated features.
-/
import proofs.«173241_j6760278523984_1_alg».proof.Proof.Layers
import proofs.«173241_j6760278523984_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.Gcn.ReadoutRegion

open Cert.KernelIdeal Cert.KernelIdeal.Gen

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-! ## The block's product at an index

The body's `tpu.matmul` contracts axis 1 of the [10000, 64] block with axis 0 of the [64, 1] weight: at the output
index `(r, c)` and contraction index `k` it reads the block at `(r, k)` and the weight at `(k, c)`. -/

theorem lhs_blk_0 (j : S10000x1.Idx) (q : dot_S10000x64_S64x1_S10000x1_1_0_0_1_n_n.contr.Idx) :
    (dot_S10000x64_S64x1_S10000x1_1_0_0_1_n_n.lhsIdx j q 0).val = (j 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_blk_1 (j : S10000x1.Idx) (q : dot_S10000x64_S64x1_S10000x1_1_0_0_1_n_n.contr.Idx) :
    (dot_S10000x64_S64x1_S10000x1_1_0_0_1_n_n.lhsIdx j q 1).val = (q ⟨0, by decide⟩).val :=
  dot_S10000x64_S64x1_S10000x1_1_0_0_1_n_n.lhsIdx_val_of_single rfl j q
theorem rhs_blk_0 (j : S10000x1.Idx) (q : dot_S10000x64_S64x1_S10000x1_1_0_0_1_n_n.contr.Idx) :
    (dot_S10000x64_S64x1_S10000x1_1_0_0_1_n_n.rhsIdx j q 0).val = (q ⟨0, by decide⟩).val :=
  dot_S10000x64_S64x1_S10000x1_1_0_0_1_n_n.rhsIdx_val_of_single rfl j q
theorem rhs_blk_1 (j : S10000x1.Idx) (q : dot_S10000x64_S64x1_S10000x1_1_0_0_1_n_n.contr.Idx) :
    (dot_S10000x64_S64x1_S10000x1_1_0_0_1_n_n.rhsIdx j q 1).val = (j 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- Row `j 0` of the block at column `k`. -/
abbrev blkRow (j : S10000x1.Idx) (k : Fin 64) : S10000x64.Idx := fun a => match a with
  | ⟨0, _⟩ => ⟨(j 0).val, (j 0).isLt⟩
  | ⟨1, _⟩ => ⟨k.val, k.isLt⟩
/-- Row `k` of the weight at column `j 1`. -/
abbrev wCol (j : S10000x1.Idx) (k : Fin 64) : S64x1.Idx := fun a => match a with
  | ⟨0, _⟩ => ⟨k.val, k.isLt⟩
  | ⟨1, _⟩ => ⟨(j 1).val, (j 1).isLt⟩
/-- The one entry of a [1, 1] array. -/
abbrev origin : S1x1.Idx := fun a => match a with
  | ⟨0, _⟩ => ⟨0, Nat.one_pos⟩
  | ⟨1, _⟩ => ⟨0, Nat.one_pos⟩

/-- The block's product into the zero accumulator, at an index: the sum over the 64 columns. -/
theorem matmul_blk_apply (x : FVec Ideal S10000x64 .bf16) (w : FVec Ideal S64x1 .bf16) (j : S10000x1.Idx) :
    matmul (F := Ideal) dot_S10000x64_S64x1_S10000x1_1_0_0_1_n_n none x w (constant (F := Ideal) S10000x1 .f32 0x00000000#32) j
      = ∑ k : Fin 64, x (blkRow j k) * w (wCol j k) := by
  refine (Ideal.matmul_constant_zero_apply dot_S10000x64_S64x1_S10000x1_1_0_0_1_n_n none x w j).trans ?_
  rw [← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx j ((ValueIdx.contrEquiv1 dot_S10000x64_S64x1_S10000x1_1_0_0_1_n_n 64 rfl rfl).symm k) = blkRow j k := funext fun a => Fin.ext (by
    match a with
    | ⟨0, _⟩ => exact lhs_blk_0 _ _
    | ⟨1, _⟩ => exact (lhs_blk_1 _ _).trans hk)
  have er : dot_S10000x64_S64x1_S10000x1_1_0_0_1_n_n.rhsIdx j ((ValueIdx.contrEquiv1 dot_S10000x64_S64x1_S10000x1_1_0_0_1_n_n 64 rfl rfl).symm k) = wCol j k := funext fun a => Fin.ext (by
    match a with
    | ⟨0, _⟩ => exact (rhs_blk_0 _ _).trans hk
    | ⟨1, _⟩ => exact rhs_blk_1 _ _)
  rw [el, er]

/-! ## The body's payload at an index -/

/-- What the body stores, at an index of the output block: row `j 0` of the feature block against the weight's
    column, plus the bias. The shape casts are to the same shape and the format changes the identity. -/
theorem payload_apply (x0 : Vec Ideal S10000x64 .f32) (x1 : Vec Ideal S64x1 .f32) (x2 : Vec Ideal S1x1 .f32) (j : S10000x1.Idx) :
    k2_pay1 (F := Ideal) x0 x1 x2 j = (∑ k : Fin 64, x0 (blkRow j k) * x1 (wCol j k)) + x2 origin := by
  unfold k2_pay1
  show matmul (F := Ideal) dot_S10000x64_S64x1_S10000x1_1_0_0_1_n_n none (truncf .bf16 (shapeCast S10000x64 x0 shapeCasts_S10000x64_S10000x64) bitsLt_bf16_f32) (truncf .bf16 x1 bitsLt_bf16_f32) (constant (F := Ideal) S10000x1 .f32 0x00000000#32) j
      + broadcastTo S10000x1 (shapeCast S1x1 (shapeCast S1x1 x2 shapeCasts_S1x1_S1x1) shapeCasts_S1x1_S1x1) broadcasts_S1x1_S10000x1 j = _
  rw [matmul_blk_apply, shapeCast_self, shapeCast_self, shapeCast_self]
  refine congrArg (_ + ·) ?_
  exact broadcastTo_apply x2 broadcasts_S1x1_S10000x1 j origin (fun a => match a with
    | ⟨0, _⟩ => by show 0 = if (1 : Nat) = 1 then 0 else _; rw [if_pos rfl]
    | ⟨1, _⟩ => by show 0 = if (1 : Nat) = 1 then 0 else _; rw [if_pos rfl])

/-! ## The layer at an index of the whole array

The reference's `dot_general` has the same dimension numbers at [100000, 64] × [64, 1]; the bias is read at its one
entry for every row. -/

theorem lhs_arr_0 (i : Cert.ReferenceIdeal.S100000x1.Idx) (q : Cert.ReferenceIdeal.dot_S100000x64_S64x1_S100000x1_1_0_0_1_n_n.contr.Idx) :
    (Cert.ReferenceIdeal.dot_S100000x64_S64x1_S100000x1_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x1_S100000x1_1_0_0_1_n_n.lhsBatch by decide), dif_pos (show (0 : Fin Cert.ReferenceIdeal.S100000x64.rank) ∈ Cert.ReferenceIdeal.dot_S100000x64_S64x1_S100000x1_1_0_0_1_n_n.lhsNonContracting by decide)]
  rfl
theorem lhs_arr_1 (i : Cert.ReferenceIdeal.S100000x1.Idx) (q : Cert.ReferenceIdeal.dot_S100000x64_S64x1_S100000x1_1_0_0_1_n_n.contr.Idx) :
    (Cert.ReferenceIdeal.dot_S100000x64_S64x1_S100000x1_1_0_0_1_n_n.lhsIdx i q 1).val = (q ⟨0, by decide⟩).val :=
  Cert.ReferenceIdeal.dot_S100000x64_S64x1_S100000x1_1_0_0_1_n_n.lhsIdx_val_of_single rfl i q
theorem rhs_arr_0 (i : Cert.ReferenceIdeal.S100000x1.Idx) (q : Cert.ReferenceIdeal.dot_S100000x64_S64x1_S100000x1_1_0_0_1_n_n.contr.Idx) :
    (Cert.ReferenceIdeal.dot_S100000x64_S64x1_S100000x1_1_0_0_1_n_n.rhsIdx i q 0).val = (q ⟨0, by decide⟩).val :=
  Cert.ReferenceIdeal.dot_S100000x64_S64x1_S100000x1_1_0_0_1_n_n.rhsIdx_val_of_single rfl i q
theorem rhs_arr_1 (i : Cert.ReferenceIdeal.S100000x1.Idx) (q : Cert.ReferenceIdeal.dot_S100000x64_S64x1_S100000x1_1_0_0_1_n_n.contr.Idx) :
    (Cert.ReferenceIdeal.dot_S100000x64_S64x1_S100000x1_1_0_0_1_n_n.rhsIdx i q 1).val = (i 1).val := by
  unfold DotDims.rhsIdx
  rw [dif_neg (show ¬(1 : Fin Cert.ReferenceIdeal.S64x1.rank) ∈ Cert.ReferenceIdeal.dot_S100000x64_S64x1_S100000x1_1_0_0_1_n_n.rhsBatch by decide), dif_pos (show (1 : Fin Cert.ReferenceIdeal.S64x1.rank) ∈ Cert.ReferenceIdeal.dot_S100000x64_S64x1_S100000x1_1_0_0_1_n_n.rhsNonContracting by decide)]
  rfl

/-- Row `i 0` of the feature array at column `k`. -/
abbrev arrRow (i : S100000x1.Idx) (k : Fin 64) : S100000x64.Idx := fun a => match a with
  | ⟨0, _⟩ => ⟨(i 0).val, (i 0).isLt⟩
  | ⟨1, _⟩ => ⟨k.val, k.isLt⟩
/-- Row `k` of the weight at column `i 1`. -/
abbrev arrCol (i : S100000x1.Idx) (k : Fin 64) : S64x1.Idx := fun a => match a with
  | ⟨0, _⟩ => ⟨k.val, k.isLt⟩
  | ⟨1, _⟩ => ⟨(i 1).val, (i 1).isLt⟩

/-- The layer at an index: row `i 0` of the features against the weight's column, plus the bias. -/
theorem readout_apply (a : (⟨S100000x64, .f32⟩ : BufTy).Contents (Elt Ideal)) (w : (⟨S64x1, .f32⟩ : BufTy).Contents (Elt Ideal))
    (b : (⟨S1x1, .f32⟩ : BufTy).Contents (Elt Ideal)) (i : S100000x1.Idx) :
    Cert.Gcn.readout (F := Ideal) a w b i = (∑ k : Fin 64, a (arrRow i k) * w (arrCol i k)) + b origin := by
  unfold Cert.Gcn.readout
  show Host.dotGeneral (F := Ideal) (φ₁ := .f32) (φ₂ := .f32) Cert.ReferenceIdeal.dot_S100000x64_S64x1_S100000x1_1_0_0_1_n_n none a w i
      + broadcastInDim Cert.ReferenceIdeal.S100000x1 ![0, 1] Cert.ReferenceIdeal.Facts₀.bcast_S1x1_S100000x1_0_1 b i = _
  have hdot : Host.dotGeneral (F := Ideal) (φ₁ := .f32) (φ₂ := .f32) Cert.ReferenceIdeal.dot_S100000x64_S64x1_S100000x1_1_0_0_1_n_n none a w i
      = ∑ k : Fin 64, a (arrRow i k) * w (arrCol i k) := by
    simp only [Host.dotGeneral]
    rw [Ideal.dotGeneral_apply, ← Equiv.sum_comp (ValueIdx.contrEquiv1 Cert.ReferenceIdeal.dot_S100000x64_S64x1_S100000x1_1_0_0_1_n_n 64 rfl rfl).symm]
    refine Finset.sum_congr rfl fun k _ => ?_
    have hk := ValueIdx.contrEquiv1_symm_val Cert.ReferenceIdeal.dot_S100000x64_S64x1_S100000x1_1_0_0_1_n_n 64 rfl rfl k
    have el : Cert.ReferenceIdeal.dot_S100000x64_S64x1_S100000x1_1_0_0_1_n_n.lhsIdx i ((ValueIdx.contrEquiv1 Cert.ReferenceIdeal.dot_S100000x64_S64x1_S100000x1_1_0_0_1_n_n 64 rfl rfl).symm k) = arrRow i k := funext fun a => Fin.ext (by
      match a with
      | ⟨0, _⟩ => exact lhs_arr_0 _ _
      | ⟨1, _⟩ => exact (lhs_arr_1 _ _).trans hk)
    have er : Cert.ReferenceIdeal.dot_S100000x64_S64x1_S100000x1_1_0_0_1_n_n.rhsIdx i ((ValueIdx.contrEquiv1 Cert.ReferenceIdeal.dot_S100000x64_S64x1_S100000x1_1_0_0_1_n_n 64 rfl rfl).symm k) = arrCol i k := funext fun a => Fin.ext (by
      match a with
      | ⟨0, _⟩ => exact (rhs_arr_0 _ _).trans hk
      | ⟨1, _⟩ => exact rhs_arr_1 _ _)
    rw [el, er]
  rw [hdot]
  refine congrArg (_ + ·) ?_
  exact broadcastInDim_apply _ Cert.ReferenceIdeal.Facts₀.bcast_S1x1_S100000x1_0_1 b i origin (fun a => match a with
    | ⟨0, _⟩ => by show 0 = if (1 : Nat) = 1 then 0 else (i 0).val; rw [if_pos rfl]
    | ⟨1, _⟩ => by show 0 = if (1 : Nat) = 1 then 0 else (i 1).val; rw [if_pos rfl])

/-! ## The windows' blocks inside their arrays -/

/-- The index maps, decided over the ten grid points: the feature block moves with the output's down the rows; the
    weight and the bias are fetched whole. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every block of ten thousand rows of the output is some point's. -/
theorem idx_onto : ∀ q : Fin 10, ∃ t : Fin cfg2.N, win2_3.index t = ![q.val, 0] :=
  (by decide +kernel : ∀ q : Fin 10, ∃ t : Fin grid2.N, win2_3.index t = ![q.val, 0])

/-- An element of the feature block at point `t` is the feature array's element ten thousand rows per block further
    down. -/
theorem read_feat (c : Dev nD) (t : Fin cfg2.N) (y : S10000x64.Idx) (i : S100000x64.Idx)
    (h0 : (i 0).val = win2_0.index t (0 : Fin 2) * 10000 + (y 0).val) (h1 : (i 1).val = win2_0.index t (1 : Fin 2) * 64 + (y 1).val) :
    iblk2 V c 0 t y = V c main_v46 i := by
  show V c main_v46 (((cfg2.win 0).blk t).view.emb y) = V c main_v46 i
  refine congrArg (V c main_v46) (funext fun a => Fin.ext ?_)
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- The weight's one block is the weight. -/
theorem read_weight (c : Dev nD) (t : Fin cfg2.N) (y : S64x1.Idx) (i : S64x1.Idx)
    (h0 : (i 0).val = win2_1.index t (0 : Fin 2) * 64 + (y 0).val) (h1 : (i 1).val = win2_1.index t (1 : Fin 2) * 1 + (y 1).val) :
    iblk2 V c 1 t y = V c main_arg6 i := by
  show V c main_arg6 (((cfg2.win 1).blk t).view.emb y) = V c main_arg6 i
  refine congrArg (V c main_arg6) (funext fun a => Fin.ext ?_)
  match a with
  | ⟨0, _⟩ => show win2_1.index t (0 : Fin 2) * 64 + 1 * (y 0).val = (i 0).val; omega
  | ⟨1, _⟩ => show win2_1.index t (1 : Fin 2) * 1 + 1 * (y 1).val = (i 1).val; omega

/-- The bias's one block is the bias. -/
theorem read_bias (c : Dev nD) (t : Fin cfg2.N) (y : S1x1.Idx) (i : S1x1.Idx)
    (h0 : (i 0).val = win2_2.index t (0 : Fin 2) * 1 + (y 0).val) (h1 : (i 1).val = win2_2.index t (1 : Fin 2) * 1 + (y 1).val) :
    iblk2 V c 2 t y = V c main_v47 i := by
  show V c main_v47 (((cfg2.win 2).blk t).view.emb y) = V c main_v47 i
  refine congrArg (V c main_v47) (funext fun a => Fin.ext ?_)
  match a with
  | ⟨0, _⟩ => show win2_2.index t (0 : Fin 2) * 1 + 1 * (y 0).val = (i 0).val; omega
  | ⟨1, _⟩ => show win2_2.index t (1 : Fin 2) * 1 + 1 * (y 1).val = (i 1).val; omega

/-! ## From the blocks to the array -/

/-- What point `t` writes back is block `t` of the readout of the arrays the region found: the layer is row-wise,
    and row `r` of block `t` is row `10000 t + r` of the array. -/
theorem flushed_eq (c : Dev nD) (t : Fin cfg2.N) :
    (dat2 (F := Ideal) V c).flushed 3 t
      = ((cfg2.win 3).blk t).view.read (Elt Ideal) (Cert.Gcn.readout (F := Ideal) (V c main_v46) (V c main_arg6) (V c main_v47)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x1) hz, View.ld_unit_zero (S := S1x1) hz]
  funext j
  show k2_pay1 (F := Ideal) (iblk2 V c 0 t) (iblk2 V c 1 t) (iblk2 V c 2 t) j
    = Cert.Gcn.readout (F := Ideal) (V c main_v46) (V c main_arg6) (V c main_v47) (((cfg2.win 3).blk t).view.emb j)
  obtain ⟨e0, e1, e2, e3, e4, e5, e6, e7⟩ := idx_facts t
  have hj0 : ((((cfg2.win 3).blk t).view.emb j) 0).val = win2_3.index t (0 : Fin 2) * 10000 + (j 0).val := by
    show win2_3.index t (0 : Fin 2) * 10000 + 1 * (j 0).val = _; omega
  have hj1 : ((((cfg2.win 3).blk t).view.emb j) 1).val = win2_3.index t (1 : Fin 2) * 1 + (j 1).val := by
    show win2_3.index t (1 : Fin 2) * 1 + 1 * (j 1).val = _; omega
  refine (payload_apply (iblk2 V c 0 t) (iblk2 V c 1 t) (iblk2 V c 2 t) j).trans ?_
  refine Eq.trans ?_ (readout_apply (V c main_v46) (V c main_arg6) (V c main_v47) (((cfg2.win 3).blk t).view.emb j)).symm
  refine congrArg₂ (· + ·) (Finset.sum_congr rfl fun k _ => congrArg₂ (· * ·) ?_ ?_) ?_
  · refine read_feat V c t (blkRow j k) _ ?_ ?_
    · exact hj0.trans (by rw [e0])
    · show k.val = win2_0.index t (1 : Fin 2) * 64 + k.val; rw [e1, Nat.zero_mul, Nat.zero_add]
  · refine read_weight V c t (wCol j k) _ ?_ ?_
    · show k.val = win2_1.index t (0 : Fin 2) * 64 + k.val; rw [e2, Nat.zero_mul, Nat.zero_add]
    · exact hj1.trans (by rw [e6, e3])
  · refine read_bias V c t origin origin ?_ ?_
    · show 0 = win2_2.index t (0 : Fin 2) * 1 + 0; rw [e4]
    · show 0 = win2_2.index t (1 : Fin 2) * 1 + 0; rw [e5]

/-- An index of the output is in point `t`'s block iff each coordinate is in the block's range on its axis. -/
theorem mem_blk (t : Fin cfg2.N) (i : S100000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v48).slice (win2_3.rect t)).set ↔ _
  rw [View.set_slice_whole, Rect.mem_set_unit]
  exact Iff.rfl

/-- The ten blocks tile the output: row `r` lies in the block of the point whose block index is `r / 10000`. -/
theorem cover (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 1 ≤ (i 1).val ∧ (i 1).val < win2_3.index t (1 : Fin 2) * 1 + 1; omega

/-- After the region's ten write-backs the output array is the readout of the arrays the region found. -/
theorem array_eq (c : Dev nD) :
    (dat2 (F := Ideal) V c).arrAt 3 cfg2.N = Cert.Gcn.readout (F := Ideal) (V c main_v46) (V c main_arg6) (V c main_v47) :=
  (dat2 (F := Ideal) V c).arrAt_eq_of_cover 3 (Cert.Gcn.readout (F := Ideal) (V c main_v46) (V c main_arg6) (V c main_v47))
    (fun t _ => flushed_eq V c t) cover

end Cert.Gcn.ReadoutRegion

end
-- ==== Proof.KernelFold.lean ====
/-
  What each region of the idealized kernel finds in its arrays, and what the last one leaves in the result: the fold of
  @main's segments read buffer by buffer.

    before the first region   x, W_in as launched; the bias b_in reshaped to [1, 64]
    before the second         the first region's output; W_g as launched
    before the third          the message passing (host operations) of the second region's output over the edge index
                              and b_g; W_out as launched; b_out reshaped to [1, 1]
    at the end                the result array is the third region's output

  With each region's array named by its layer, the result is the network of the launch arguments.
-/
import proofs.«173241_j6760278523984_1_alg».proof.Proof.Layers
import proofs.«173241_j6760278523984_1_alg».proof.Proof.HiddenRegion
import proofs.«173241_j6760278523984_1_alg».proof.Proof.ProjectedRegion
import proofs.«173241_j6760278523984_1_alg».proof.Proof.ReadoutRegion
import proofs.«173241_j6760278523984_1_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.Gcn.KernelFold

open Cert.KernelIdeal Cert.KernelIdeal.Gen

variable (m : (ℓ : Loc nD τ sig) → Buf (Elt Ideal) ℓ) (ρ : Dev nD → PrngReg)

/-! ## Before the first region -/

theorem entry0_x (c : Dev nD) : V1 m ρ c main_arg0 = m ((c : Thread nD τ).loc main_arg0) := by
  show StableHlo.after hostOps0 (W0 m ρ c) (Proc.devRef .tc main_arg0) = _
  after_results

theorem entry0_w (c : Dev nD) : V1 m ρ c main_arg2 = m ((c : Thread nD τ).loc main_arg2) := by
  show StableHlo.after hostOps0 (W0 m ρ c) (Proc.devRef .tc main_arg2) = _
  after_results

theorem entry0_b (c : Dev nD) : V1 m ρ c main_v4 = shapeCast S1x64 (m ((c : Thread nD τ).loc main_arg3)) Facts₀.shapeCasts_S64_S1x64 := by
  show StableHlo.after hostOps0 (W0 m ρ c) (Proc.devRef .tc main_v4) = _
  after_results
  rfl

/-- A buffer the first host stretch does not write and no region touches still holds its launch contents when the
    second stretch begins. -/
theorem mid_edge0 (c : Dev nD) : W3 m ρ c (Proc.devRef .tc main_v1) = Cert.Gcn.edgeRow0 (F := Ideal) (m ((c : Thread nD τ).loc main_arg1)) := by
  rw [W3_of_ne m ρ c main_v1 (by decide), W2_of_ne m ρ c main_v1 (by decide)]
  show StableHlo.after hostOps0 (W0 m ρ c) (Proc.devRef .tc main_v1) = _
  after_results
  rfl

theorem mid_edge1 (c : Dev nD) : W3 m ρ c (Proc.devRef .tc main_v3) = Cert.Gcn.edgeRow1 (F := Ideal) (m ((c : Thread nD τ).loc main_arg1)) := by
  rw [W3_of_ne m ρ c main_v3 (by decide), W2_of_ne m ρ c main_v3 (by decide)]
  show StableHlo.after hostOps0 (W0 m ρ c) (Proc.devRef .tc main_v3) = _
  after_results
  rfl

/-! ## Before the third region: the message passing -/

set_option maxHeartbeats 25600000 in
theorem entry2_a (c : Dev nD) :
    V4 m ρ c main_v46 = Cert.Gcn.aggregate (F := Ideal) (W3 m ρ c (Proc.devRef .tc main_v1)) (W3 m ρ c (Proc.devRef .tc main_v3))
      (W3 m ρ c (Proc.devRef .tc main_v6)) (W3 m ρ c (Proc.devRef .tc main_arg5)) := by
  show StableHlo.after hostOps2 (W3 m ρ c) (Proc.devRef .tc main_v46) = _
  after_results_simp
  repeat (first
    | rw [nullary_result] | rw [binary_result]
    | (rw [nullary_result_ne]; rotate_left; decide)
    | (rw [binary_result_ne]; rotate_left; decide))
  unfold Cert.Gcn.aggregate Cert.Gcn.norm Cert.Gcn.deg Cert.Gcn.wrapIdx Cert.Gcn.withLoops
  rfl

theorem entry2_w (c : Dev nD) : V4 m ρ c main_arg6 = m ((c : Thread nD τ).loc main_arg6) := by
  have h : V4 m ρ c main_arg6 = W3 m ρ c (Proc.devRef .tc main_arg6) := by
    show StableHlo.after hostOps2 (W3 m ρ c) (Proc.devRef .tc main_arg6) = _
    after_results_simp
  rw [h, W3_of_ne m ρ c main_arg6 (by decide), W2_of_ne m ρ c main_arg6 (by decide)]
  show StableHlo.after hostOps0 (W0 m ρ c) (Proc.devRef .tc main_arg6) = _
  after_results

theorem entry2_b (c : Dev nD) : V4 m ρ c main_v47 = shapeCast S1x1 (m ((c : Thread nD τ).loc main_arg7)) Facts₀.shapeCasts_S1_S1x1 := by
  have h : V4 m ρ c main_v47 = shapeCast S1x1 (W3 m ρ c (Proc.devRef .tc main_arg7)) Facts₀.shapeCasts_S1_S1x1 := by
    show StableHlo.after hostOps2 (W3 m ρ c) (Proc.devRef .tc main_v47) = _
    after_results_simp
    rfl
  have h7 : W3 m ρ c (Proc.devRef .tc main_arg7) = m ((c : Thread nD τ).loc main_arg7) := by
    rw [W3_of_ne m ρ c main_arg7 (by decide), W2_of_ne m ρ c main_arg7 (by decide)]
    show StableHlo.after hostOps0 (W0 m ρ c) (Proc.devRef .tc main_arg7) = _
    after_results
  rw [h, h7]

theorem mid_bias (c : Dev nD) : W3 m ρ c (Proc.devRef .tc main_arg5) = m ((c : Thread nD τ).loc main_arg5) := by
  rw [W3_of_ne m ρ c main_arg5 (by decide), W2_of_ne m ρ c main_arg5 (by decide)]
  show StableHlo.after hostOps0 (W0 m ρ c) (Proc.devRef .tc main_arg5) = _
  after_results

/-! ## Between the regions -/

theorem entry1_w (c : Dev nD) : V2 m ρ c main_arg4 = m ((c : Thread nD τ).loc main_arg4) := by
  show W2 m ρ c (Proc.devRef .tc main_arg4) = _
  rw [W2_of_ne m ρ c main_arg4 (by decide)]
  show StableHlo.after hostOps0 (W0 m ρ c) (Proc.devRef .tc main_arg4) = _
  after_results

/-- The first region's output is the hidden layer of the launch arguments. -/
theorem exit0 (c : Dev nD) :
    V2 m ρ c main_v5 = Cert.Gcn.hidden (F := Ideal) (m ((c : Thread nD τ).loc main_arg0)) (m ((c : Thread nD τ).loc main_arg2))
      (shapeCast S1x64 (m ((c : Thread nD τ).loc main_arg3)) Facts₀.shapeCasts_S64_S1x64) := by
  have h : V2 m ρ c main_v5 = (dat0 (F := Ideal) (V1 m ρ) c).arrAt 3 cfg0.N := W2_arr m ρ c 3
  rw [h, Cert.Gcn.HiddenRegion.array_eq (V1 m ρ) c, entry0_x, entry0_w, entry0_b]

/-- The second region's output is the projection of the first's. -/
theorem exit1 (c : Dev nD) :
    W3 m ρ c (Proc.devRef .tc main_v6) = Cert.Gcn.projected (F := Ideal) (V2 m ρ c main_v5) (m ((c : Thread nD τ).loc main_arg4)) := by
  have h : W3 m ρ c (Proc.devRef .tc main_v6) = (dat1 (F := Ideal) (V2 m ρ) c).arrAt 2 cfg1.N := W3_arr m ρ c 2
  rw [h, Cert.Gcn.ProjectedRegion.array_eq (V2 m ρ) c, entry1_w]

/-! ## The result -/

/-- What the run leaves in the result array is the network of the launch arguments, the two biases of the dense layers
    reshaped to [1, 64] and [1, 1]. -/
theorem result_eq (c : Dev nD) :
    W5 m ρ c (Proc.devRef .tc main_v48)
      = Cert.Gcn.network (F := Ideal) (m ((c : Thread nD τ).loc main_arg0)) (m ((c : Thread nD τ).loc main_arg1))
          (m ((c : Thread nD τ).loc main_arg2)) (shapeCast S1x64 (m ((c : Thread nD τ).loc main_arg3)) Facts₀.shapeCasts_S64_S1x64)
          (m ((c : Thread nD τ).loc main_arg4)) (m ((c : Thread nD τ).loc main_arg5))
          (m ((c : Thread nD τ).loc main_arg6)) (shapeCast S1x1 (m ((c : Thread nD τ).loc main_arg7)) Facts₀.shapeCasts_S1_S1x1) := by
  have h : W5 m ρ c (Proc.devRef .tc main_v48) = (dat2 (F := Ideal) (V4 m ρ) c).arrAt 3 cfg2.N := W5_arr m ρ c 3
  rw [h, Cert.Gcn.ReadoutRegion.array_eq (V4 m ρ) c, entry2_a, entry2_w, entry2_b, mid_edge0, mid_edge1, exit1, exit0, mid_bias]
  rfl

end Cert.Gcn.KernelFold

end
-- ==== Proof.RefTerm.lean ====
/-
  The reference's result is the network of the four layers applied to the argument arrays: its generated run states the
  result as one composed term of host operations, and the layers were cut out of that very term, so the two sides are
  the same text once the layers' names are opened. The reference hands the two biases to the dense layers as
  `broadcast_in_dim` of the flat vectors into [1, 64] and [1, 1].
-/
import proofs.«173241_j6760278523984_1_alg».proof.Proof.Layers
import proofs.«173241_j6760278523984_1_alg».proof.Proof.Gen.ReferenceIdeal.Run

noncomputable section

namespace Cert.Gcn

open Idealize.ShloMosaic Idealize.ShloMosaic.TcCoe Idealize.SL.Sem Cert.ReferenceIdeal Cert.ReferenceIdeal.Facts₀

variable {F : FTy → Type} [FloatOps F]

set_option maxRecDepth 8192 in
/-- The reference's result term is the network of its arguments. -/
theorem reference_result (m : (ℓ : Loc nD τ sig) → Buf (Elt F) ℓ) (c : Dev nD) :
    Cert.ReferenceIdeal.Value.res_out0 (F := F) m c
      = network (F := F) (m ((c.tc : Thread nD τ).loc main_arg0)) (m ((c.tc : Thread nD τ).loc main_arg1))
          (m ((c.tc : Thread nD τ).loc main_arg2)) (broadcastInDim S1x64 ![1] bcast_S64_S1x64_1 (m ((c.tc : Thread nD τ).loc main_arg3)))
          (m ((c.tc : Thread nD τ).loc main_arg4)) (m ((c.tc : Thread nD τ).loc main_arg5))
          (m ((c.tc : Thread nD τ).loc main_arg6)) (broadcastInDim S1x1 ![1] bcast_S1_S1x1_1 (m ((c.tc : Thread nD τ).loc main_arg7))) := by
  show Cert.ReferenceIdeal.Value.res_main_v52 m c = _
  unfold Cert.ReferenceIdeal.Value.res_main_v52 network readout aggregate norm deg wrapIdx withLoops projected hidden edgeRow0 edgeRow1
  rfl

end Cert.Gcn

end
-- ==== Proof.BiasShapes.lean ====
/-
  The dense layers' biases reach the two programs in two spellings: the kernel reshapes the flat vector to a one-row
  array, the reference broadcasts it into one. A reshape [n] → [1, n] and a broadcast of [n] along a new leading unit
  axis are the same array: entry (0, q) is entry q.
-/
import proofs.«173241_j6760278523984_1_alg».proof.Proof.Layers
import Idealize.ShloMosaic.Lib.Pipeline.Value
import Idealize.ShloMosaic.Lib.ValueIdx
import Idealize.ShloMosaic.Lib.ValueLayout

noncomputable section

namespace Cert.Gcn

open Idealize.ShloMosaic Idealize.ShloMosaic.TcCoe Idealize.SL.Sem Idealize.ShloMosaic.ValueIdx Cert.ReferenceIdeal

variable {F : FTy → Type} [FloatOps F]

/-- The 64 biases as a [1, 64] row, broadcast or reshaped. -/
theorem bias_row (b : (⟨S64, .f32⟩ : BufTy).Contents (Elt F)) (h : S64.ShapeCasts S1x64) :
    broadcastInDim S1x64 ![1] Facts₀.bcast_S64_S1x64_1 b = shapeCast S1x64 b h := by
  funext i
  obtain ⟨u, q, rfl⟩ : ∃ (u : Fin 1) (q : Fin 64), i = ix2 u q := ⟨i 0, i 1, eq_ix2 i⟩
  refine Eq.trans ?_ (shapeCast_a_1a_apply b h u q).symm
  exact broadcastInDim_apply _ _ b (ix2 u q) (ix1 q) (fun a => match a with
    | ⟨0, _⟩ => by show q.val = if (64 : Nat) = 1 then 0 else q.val; rw [if_neg (by decide)])

/-- The one bias as a [1, 1] array, broadcast or reshaped. -/
theorem bias_one (b : (⟨S1, .f32⟩ : BufTy).Contents (Elt F)) (h : S1.ShapeCasts S1x1) :
    broadcastInDim S1x1 ![1] Facts₀.bcast_S1_S1x1_1 b = shapeCast S1x1 b h := by
  funext i
  obtain ⟨u, q, rfl⟩ : ∃ (u : Fin 1) (q : Fin 1), i = ix2 u q := ⟨i 0, i 1, eq_ix2 i⟩
  refine Eq.trans ?_ (shapeCast_a_1a_apply b h u q).symm
  exact broadcastInDim_apply _ _ b (ix2 u q) (ix1 q) (fun a => match a with
    | ⟨0, _⟩ => by show q.val = if (1 : Nat) = 1 then 0 else q.val; rw [if_pos rfl]; omega)

end Cert.Gcn

end
-- ==== Proof.lean ====
/-
  Both programs compute one graph-convolution network over the extended reals:

      out = readout (aggregate (edges, projected (hidden (x, W_in, b_in), W_g), b_g), W_out, b_out)

  with hidden = max (x · W_in + b_in, 0), projected = h · W_g, readout = a · W_out + b_out, and aggregate the
  message passing (self loops added, rsqrt-degree normalisation, gather of source rows, scatter-add at the ends).

  The kernel runs the three dense layers as three regions of ten row blocks each, with the message passing as host
  operations between the second and the third; its roundings to bf16 are the identity on the extended reals, and each
  region's product into a zero accumulator is the plain sum over the contracted axis, which is what the reference's
  dot_general is. Since every dense layer is row-wise, ten row blocks of a layer tile the layer of the whole array.
  The message passing is the same host operations in both programs. The two programs differ in how the dense layers'
  biases are brought to rank two (a reshape against a broadcast along a new unit axis): the same array.

  No law of the extended reals beyond the ones already in the library's reading of a product as a sum is used, so the
  precondition (finite inputs) is never opened. The idealization rewrote nothing, so `preserves` is trivial.
-/
import proofs.«173241_j6760278523984_1_alg».proof.Defs
import proofs.«173241_j6760278523984_1_alg».proof.Proof.Gen.Kernel
import proofs.«173241_j6760278523984_1_alg».proof.Proof.Gen.Kernel.Skeleton
import proofs.«173241_j6760278523984_1_alg».proof.Proof.Gen.Kernel.Launch
import proofs.«173241_j6760278523984_1_alg».proof.Proof.Gen.Kernel.Points
import proofs.«173241_j6760278523984_1_alg».proof.Proof.Gen.Kernel.Frame
import proofs.«173241_j6760278523984_1_alg».proof.Proof.Gen.KernelIdeal
import proofs.«173241_j6760278523984_1_alg».proof.Proof.Gen.KernelIdeal.Skeleton
import proofs.«173241_j6760278523984_1_alg».proof.Proof.Gen.KernelIdeal.Launch
import proofs.«173241_j6760278523984_1_alg».proof.Proof.Gen.KernelIdeal.Points
import proofs.«173241_j6760278523984_1_alg».proof.Proof.Gen.KernelIdeal.Frame
import proofs.«173241_j6760278523984_1_alg».proof.Proof.Gen.ReferenceIdeal
import proofs.«173241_j6760278523984_1_alg».proof.Proof.Gen.ReferenceIdeal.Run
import proofs.«173241_j6760278523984_1_alg».proof.Proof.Gen.ReferenceIdeal.Read
import proofs.«173241_j6760278523984_1_alg».proof.Proof.Gen.Pre_finite_inputs
import proofs.«173241_j6760278523984_1_alg».proof.Proof.KernelRun
import proofs.«173241_j6760278523984_1_alg».proof.Proof.KernelFold
import proofs.«173241_j6760278523984_1_alg».proof.Proof.RefTerm
import proofs.«173241_j6760278523984_1_alg».proof.Proof.BiasShapes
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the network of its arguments (the run read through the fold of its segments),
    the reference's at the network of its own (its generated run); the arguments agree, and the two spellings of each
    bias are one array. -/
theorem algebraic : Cert.algebraic_KernelIdeal_ReferenceIdeal := by
  intro m ρ m' ρ' _ hagree
  refine ⟨fun c => Cert.KernelIdeal.Gen.W5 m ρ c (Proc.devRef .tc Cert.KernelIdeal.main_v48), Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  refine ((Cert.Gcn.reference_result (F := Ideal) m' c).trans ?_).trans (Cert.Gcn.KernelFold.result_eq m ρ c).symm
  rw [a0, a1, a2, a3, a4, a5, a6, a7,
    Cert.Gcn.bias_row (F := Ideal) _ Cert.KernelIdeal.Facts₀.shapeCasts_S64_S1x64,
    Cert.Gcn.bias_one (F := Ideal) _ Cert.KernelIdeal.Facts₀.shapeCasts_S1_S1x1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
